-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8192x3072 : Shape := ⟨3, ![1, 8192, 3072]⟩
abbrev S1x3072 : Shape := ⟨2, ![1, 3072]⟩
abbrev S9216x3072 : Shape := ⟨2, ![9216, 3072]⟩
abbrev S9216 : Shape := ⟨1, ![9216]⟩
abbrev S_ : Shape := ⟨0, ![]⟩

class Facts : Prop where
  bcast_S_S1x8192x3072 : S_.BroadcastsInDim S1x8192x3072 (![] : Fin 0 → Fin S1x8192x3072.rank)
  reducesTo_S1x8192x3072_S_d0_1_2 : S1x8192x3072.ReducesTo [0, 1, 2] S_
  h_S_ : 0 < S_.numel
  bcast_S_S1x3072 : S_.BroadcastsInDim S1x3072 (![] : Fin 0 → Fin S1x3072.rank)
  reducesTo_S1x3072_S_d0_1 : S1x3072.ReducesTo [0, 1] S_
  bcast_S_S9216x3072 : S_.BroadcastsInDim S9216x3072 (![] : Fin 0 → Fin S9216x3072.rank)
  reducesTo_S9216x3072_S_d0_1 : S9216x3072.ReducesTo [0, 1] S_
  bcast_S_S9216 : S_.BroadcastsInDim S9216 (![] : Fin 0 → Fin S9216.rank)
  reducesTo_S9216_S_d0 : S9216.ReducesTo [0] S_

variable [Facts]

def fn_part1 {F : FTy → Type} [FloatOps F] (main_v13 : IVec S_ 1) (main_v16 : IVec S9216 1) : IVec S_ 1 :=
  let main_c_5 : IVec S_ 1 := constantI S_ 1 1#1
  let main_v17 : IVec S_ 1 := (fun x v => Host.reduce IntOp.andi x v reducesTo_S9216_S_d0 h_S_) main_v16 main_c_5
  let main_v18 : IVec S_ 1 := andi main_v13 main_v17
  main_v18

def fn {F : FTy → Type} [FloatOps F] (main_arg0 : FVec F S1x8192x3072 .f32) (main_arg1 : FVec F S1x3072 .f32) (main_arg2 : FVec F S9216x3072 .f32) (main_arg3 : FVec F S9216 .f32) : IVec S_ 1 :=
  let main_v0 : FVec F S1x8192x3072 .f32 := Host.absf main_arg0
  let main_cst : FVec F S_ .f32 := constant S_ .f32 0x7F800000#32
  let main_v1 : FVec F S1x8192x3072 .f32 := broadcastInDim S1x8192x3072 ![] bcast_S_S1x8192x3072 main_cst
  let main_v2 : IVec S1x8192x3072 1 := cmpf .olt main_v0 main_v1
  let main_c : IVec S_ 1 := constantI S_ 1 1#1
  let main_v3 : IVec S_ 1 := (fun x v => Host.reduce IntOp.andi x v reducesTo_S1x8192x3072_S_d0_1_2 h_S_) main_v2 main_c
  let main_v4 : FVec F S1x3072 .f32 := Host.absf main_arg1
  let main_cst_0 : FVec F S_ .f32 := constant S_ .f32 0x7F800000#32
  let main_v5 : FVec F S1x3072 .f32 := broadcastInDim S1x3072 ![] bcast_S_S1x3072 main_cst_0
  let main_v6 : IVec S1x3072 1 := cmpf .olt main_v4 main_v5
  let main_c_1 : IVec S_ 1 := constantI S_ 1 1#1
  let main_v7 : IVec S_ 1 := (fun x v => Host.reduce IntOp.andi x v reducesTo_S1x3072_S_d0_1 h_S_) main_v6 main_c_1
  let main_v8 : IVec S_ 1 := andi main_v3 main_v7
  let main_v9 : FVec F S9216x3072 .f32 := Host.absf main_arg2
  let main_cst_2 : FVec F S_ .f32 := constant S_ .f32 0x7F800000#32
  let main_v10 : FVec F S9216x3072 .f32 := broadcastInDim S9216x3072 ![] bcast_S_S9216x3072 main_cst_2
  let main_v11 : IVec S9216x3072 1 := cmpf .olt main_v9 main_v10
  let main_c_3 : IVec S_ 1 := constantI S_ 1 1#1
  let main_v12 : IVec S_ 1 := (fun x v => Host.reduce IntOp.andi x v reducesTo_S9216x3072_S_d0_1 h_S_) main_v11 main_c_3
  let main_v13 : IVec S_ 1 := andi main_v8 main_v12
  let main_v14 : FVec F S9216 .f32 := Host.absf main_arg3
  let main_cst_4 : FVec F S_ .f32 := constant S_ .f32 0x7F800000#32
  let main_v15 : FVec F S9216 .f32 := broadcastInDim S9216 ![] bcast_S_S9216 main_cst_4
  let main_v16 : IVec S9216 1 := cmpf .olt main_v14 main_v15
  fn_part1 (F := F) main_v13 main_v16
-- ==== Kernel.lean ====
abbrev S1x8192x3072 : Shape := ⟨3, ![1, 8192, 3072]⟩
abbrev S1x3072 : Shape := ⟨2, ![1, 3072]⟩
abbrev S9216x3072 : Shape := ⟨2, ![9216, 3072]⟩
abbrev S9216 : Shape := ⟨1, ![9216]⟩
abbrev S1x9216 : Shape := ⟨2, ![1, 9216]⟩
abbrev S1024x3072 : Shape := ⟨2, ![1024, 3072]⟩
abbrev S1x1024 : Shape := ⟨2, ![1, 1024]⟩
abbrev S1x3072x3 : Shape := ⟨3, ![1, 3072, 3]⟩
abbrev S1x3072x1 : Shape := ⟨3, ![1, 3072, 1]⟩
abbrev S1x256x3072 : Shape := ⟨3, ![1, 256, 3072]⟩
abbrev S1x256 : Shape := ⟨2, ![1, 256]⟩
abbrev S1x256x1 : Shape := ⟨3, ![1, 256, 1]⟩
abbrev S1x1x3072 : Shape := ⟨3, ![1, 1, 3072]⟩

abbrev nBuf : Space → Nat
  | .hbm => 14
  | .vmem => 13
  | .smem => 0
  | _ => 0

abbrev bufTy : (tb : Table) → Fin (tcTables nBuf tb) → BufTy
  | .hbm, ⟨0, _⟩ => ⟨S1x8192x3072, .f32⟩
  | .hbm, ⟨1, _⟩ => ⟨S1x3072, .f32⟩
  | .hbm, ⟨2, _⟩ => ⟨S9216x3072, .f32⟩
  | .hbm, ⟨3, _⟩ => ⟨S9216, .f32⟩
  | .hbm, ⟨4, _⟩ => ⟨S1x9216, .f32⟩
  | .hbm, ⟨5, _⟩ => ⟨S1x9216, .f32⟩
  | .hbm, ⟨6, _⟩ => ⟨S1x3072x3, .f32⟩
  | .hbm, ⟨7, _⟩ => ⟨S1x3072x1, .f32⟩
  | .hbm, ⟨8, _⟩ => ⟨S1x3072, .f32⟩
  | .hbm, ⟨9, _⟩ => ⟨S1x3072x1, .f32⟩
  | .hbm, ⟨10, _⟩ => ⟨S1x3072, .f32⟩
  | .hbm, ⟨11, _⟩ => ⟨S1x3072x1, .f32⟩
  | .hbm, ⟨12, _⟩ => ⟨S1x3072, .f32⟩
  | .hbm, ⟨13, _⟩ => ⟨S1x8192x3072, .f32⟩
  | .local _ .vmem, ⟨0, _⟩ => ⟨S1x3072, .f32⟩
  | .local _ .vmem, ⟨1, _⟩ => ⟨S1024x3072, .f32⟩
  | .local _ .vmem, ⟨2, _⟩ => ⟨S1024x3072, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x256x3072, .f32⟩
  | .local _ .vmem, ⟨8, _⟩ => ⟨S1x256x3072, .f32⟩
  | .local _ .vmem, ⟨9, _⟩ => ⟨S1x3072, .f32⟩
  | .local _ .vmem, ⟨10, _⟩ => ⟨S1x3072, .f32⟩
  | .local _ .vmem, ⟨11, _⟩ => ⟨S1x256x3072, .f32⟩
  | .local _ .vmem, ⟨12, _⟩ => ⟨S1x256x3072, .f32⟩
  | _, _ => ⟨S1x8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1x256x3072 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x3072 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x3072 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x256x3072 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S9216_S1x9216 : S9216.ShapeCasts S1x9216
  inb_S1x3072_S1x3072_0_0 : ∀ a, (![0, 0] : Fin 2 → Nat) a + S1x3072.size a ≤ S1x3072.size a
  h_S1x3072 : 0 < S1x3072.numel
  bitsLt_bf16_f32 : FTy.bits .bf16 < FTy.bits .f32
  inb_S1024x3072_S1024x3072_0_0 : ∀ a, (![0, 0] : Fin 2 → Nat) a + S1024x3072.size a ≤ S1024x3072.size a
  h_S1024x3072 : 0 < S1024x3072.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S1x9216_S1x3072x3 : S1x9216.ShapeCasts S1x3072x3
  slices_S1x3072x3_S1x3072x1_0_0_0 : S1x3072x3.Slices ![0, 0, 0] S1x3072x1
  shapeCasts_S1x3072x1_S1x3072 : S1x3072x1.ShapeCasts S1x3072
  slices_S1x3072x3_S1x3072x1_0_0_1 : S1x3072x3.Slices ![0, 0, 1] S1x3072x1
  slices_S1x3072x3_S1x3072x1_0_0_2 : S1x3072x3.Slices ![0, 0, 2] S1x3072x1
  inb_S1x256x3072_S1x256x3072_0_0_0 : ∀ a, (![0, 0, 0] : Fin 3 → Nat) a + S1x256x3072.size a ≤ S1x256x3072.size a
  h_S1x256x3072 : 0 < S1x256x3072.numel
  reduces_S1x256x3072_S1x256 : S1x256x3072.Reduces [2] S1x256
  shapeCasts_S1x256_S1x256x1 : S1x256.ShapeCasts S1x256x1
  broadcasts_S1x256x1_S1x256x3072 : S1x256x1.Broadcasts S1x256x3072
  shapeCasts_S1x3072_S1x3072 : S1x3072.ShapeCasts S1x3072
  shapeCasts_S1x3072_S1x1x3072 : S1x3072.ShapeCasts S1x1x3072
  broadcasts_S1x1x3072_S1x256x3072 : S1x1x3072.Broadcasts S1x256x3072
  dot_S1x3072_S1024x3072_S1x1024_1_1_0_0_n_n_wf : DotDims.WF S1x3072 S1024x3072 S1x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x3072.size a ≤ S1x3072.size a
  hwx0_0 : ∀ i : grid0.Coords, EltTy.bits .f32 = 32 ∨ (Rect.block (s := S1x3072) S1x3072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S9216x3072.size a
  hwx0_1 : ∀ i : grid0.Coords, EltTy.bits .f32 = 32 ∨ (Rect.block (s := S9216x3072) S1024x3072.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x9216.size a
  hwx0_2 : ∀ i : grid0.Coords, EltTy.bits .f32 = 32 ∨ (Rect.block (s := S1x9216) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x9216.size a
  hwx0_3 : ∀ i : grid0.Coords, EltTy.bits .f32 = 32 ∨ (Rect.block (s := S1x9216) S1x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x3072.size a ≤ S1x8192x3072.size a
  hwx1_0 : ∀ i : grid1.Coords, EltTy.bits .f32 = 32 ∨ (Rect.block (s := S1x8192x3072) S1x256x3072.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x3072.size a ≤ S1x3072.size a
  hwx1_1 : ∀ i : grid1.Coords, EltTy.bits .f32 = 32 ∨ (Rect.block (s := S1x3072) S1x3072.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x3072.size a ≤ S1x3072.size a
  hwx1_2 : ∀ i : grid1.Coords, EltTy.bits .f32 = 32 ∨ (Rect.block (s := S1x3072) S1x3072.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x3072.size a ≤ S1x8192x3072.size a
  hwx1_3 : ∀ i : grid1.Coords, EltTy.bits .f32 = 32 ∨ (Rect.block (s := S1x8192x3072) S1x256x3072.size (cc1_transform_3 i) (hinb1_3 i)).WholeWords (EltTy.packing .f32)

variable [Facts₀]

def dot_S1x3072_S1024x3072_S1x1024_1_1_0_0_n_n : DotDims S1x3072 S1024x3072 S1x1024 where
  lhsContracting := [1]
  rhsContracting := [1]
  lhsNonContracting := [0]
  rhsNonContracting := [0]
  lhsBatch := []
  rhsBatch := []
  wf := dot_S1x3072_S1024x3072_S1x1024_1_1_0_0_n_n_wf

abbrev win0_0 : Pipeline.Window sig grid0 :=
  Pipeline.Window.ofSpec (Memref.whole main_arg1) S1x3072.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x3072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1x256x3072.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x3072.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x3072.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x256x3072.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1x8192x3072 : Shape := ⟨3, ![1, 8192, 3072]⟩
abbrev S1x3072 : Shape := ⟨2, ![1, 3072]⟩
abbrev S9216x3072 : Shape := ⟨2, ![9216, 3072]⟩
abbrev S9216 : Shape := ⟨1, ![9216]⟩
abbrev S_ : Shape := ⟨0, ![]⟩
abbrev S3072x9216 : Shape := ⟨2, ![3072, 9216]⟩
abbrev S1x9216 : Shape := ⟨2, ![1, 9216]⟩
abbrev S1x3072x3 : Shape := ⟨3, ![1, 3072, 3]⟩
abbrev S1x3072x1 : Shape := ⟨3, ![1, 3072, 1]⟩
abbrev S1x8192 : Shape := ⟨2, ![1, 8192]⟩
abbrev S1x8192x1 : Shape := ⟨3, ![1, 8192, 1]⟩
abbrev S1x1x3072 : Shape := ⟨3, ![1, 1, 3072]⟩

abbrev nBuf : Space → Nat
  | .hbm => 53
  | .vmem => 0
  | .smem => 0
  | _ => 0

abbrev bufTy : (tb : Table) → Fin (tcTables nBuf tb) → BufTy
  | .hbm, ⟨0, _⟩ => ⟨S1x8192x3072, .f32⟩
  | .hbm, ⟨1, _⟩ => ⟨S1x3072, .f32⟩
  | .hbm, ⟨2, _⟩ => ⟨S9216x3072, .f32⟩
  | .hbm, ⟨3, _⟩ => ⟨S9216, .f32⟩
  | .hbm, ⟨4, _⟩ => ⟨S1x3072, .f32⟩
  | .hbm, ⟨5, _⟩ => ⟨S1x3072, .f32⟩
  | .hbm, ⟨6, _⟩ => ⟨S_, .f32⟩
  | .hbm, ⟨7, _⟩ => ⟨S1x3072, .f32⟩
  | .hbm, ⟨8, _⟩ => ⟨S1x3072, .f32⟩
  | .hbm, ⟨9, _⟩ => ⟨S_, .f32⟩
  | .hbm, ⟨10, _⟩ => ⟨S1x3072, .f32⟩
  | .hbm, ⟨11, _⟩ => ⟨S1x3072, .f32⟩
  | .hbm, ⟨12, _⟩ => ⟨S1x3072, .f32⟩
  | .hbm, ⟨13, _⟩ => ⟨S3072x9216, .f32⟩
  | .hbm, ⟨14, _⟩ => ⟨S1x9216, .f32⟩
  | .hbm, ⟨15, _⟩ => ⟨S1x9216, .f32⟩
  | .hbm, ⟨16, _⟩ => ⟨S1x9216, .f32⟩
  | .hbm, ⟨17, _⟩ => ⟨S1x3072x3, .f32⟩
  | .hbm, ⟨18, _⟩ => ⟨S1x3072x1, .f32⟩
  | .hbm, ⟨19, _⟩ => ⟨S1x3072, .f32⟩
  | .hbm, ⟨20, _⟩ => ⟨S1x3072x1, .f32⟩
  | .hbm, ⟨21, _⟩ => ⟨S1x3072, .f32⟩
  | .hbm, ⟨22, _⟩ => ⟨S1x3072x1, .f32⟩
  | .hbm, ⟨23, _⟩ => ⟨S1x3072, .f32⟩
  | .hbm, ⟨24, _⟩ => ⟨S_, .f32⟩
  | .hbm, ⟨25, _⟩ => ⟨S1x8192, .f32⟩
  | .hbm, ⟨26, _⟩ => ⟨S1x8192x1, .f32⟩
  | .hbm, ⟨27, _⟩ => ⟨S_, .f32⟩
  | .hbm, ⟨28, _⟩ => ⟨S1x8192x1, .f32⟩
  | .hbm, ⟨29, _⟩ => ⟨S1x8192x1, .f32⟩
  | .hbm, ⟨30, _⟩ => ⟨S1x8192x3072, .f32⟩
  | .hbm, ⟨31, _⟩ => ⟨S1x8192x3072, .f32⟩
  | .hbm, ⟨32, _⟩ => ⟨S1x8192x3072, .f32⟩
  | .hbm, ⟨33, _⟩ => ⟨S_, .f32⟩
  | .hbm, ⟨34, _⟩ => ⟨S1x8192, .f32⟩
  | .hbm, ⟨35, _⟩ => ⟨S1x8192x1, .f32⟩
  | .hbm, ⟨36, _⟩ => ⟨S_, .f32⟩
  | .hbm, ⟨37, _⟩ => ⟨S1x8192x1, .f32⟩
  | .hbm, ⟨38, _⟩ => ⟨S1x8192x1, .f32⟩
  | .hbm, ⟨39, _⟩ => ⟨S1x8192x3072, .f32⟩
  | .hbm, ⟨40, _⟩ => ⟨S1x8192x3072, .f32⟩
  | .hbm, ⟨41, _⟩ => ⟨S_, .f32⟩
  | .hbm, ⟨42, _⟩ => ⟨S1x8192x1, .f32⟩
  | .hbm, ⟨43, _⟩ => ⟨S1x8192x1, .f32⟩
  | .hbm, ⟨44, _⟩ => ⟨S1x8192x1, .f32⟩
  | .hbm, ⟨45, _⟩ => ⟨S1x8192x3072, .f32⟩
  | .hbm, ⟨46, _⟩ => ⟨S1x8192x3072, .f32⟩
  | .hbm, ⟨47, _⟩ => ⟨S1x1x3072, .f32⟩
  | .hbm, ⟨48, _⟩ => ⟨S1x8192x3072, .f32⟩
  | .hbm, ⟨49, _⟩ => ⟨S1x8192x3072, .f32⟩
  | .hbm, ⟨50, _⟩ => ⟨S1x1x3072, .f32⟩
  | .hbm, ⟨51, _⟩ => ⟨S1x8192x3072, .f32⟩
  | .hbm, ⟨52, _⟩ => ⟨S1x8192x3072, .f32⟩
  | _, _ => ⟨S1x8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  bcast_S_S1x3072 : S_.BroadcastsInDim S1x3072 (![] : Fin 0 → Fin S1x3072.rank)
  transposes_S9216x3072_S3072x9216_1_0 : S9216x3072.Transposes [1, 0] S3072x9216
  bcast_S9216_S1x9216_1 : S9216.BroadcastsInDim S1x9216 (![1] : Fin 1 → Fin S1x9216.rank)
  shapeCasts_S1x9216_S1x3072x3 : S1x9216.ShapeCasts S1x3072x3
  slices_S1x3072x3_S1x3072x1_0_0_0 : S1x3072x3.Slices ![0, 0, 0] S1x3072x1
  shapeCasts_S1x3072x1_S1x3072 : S1x3072x1.ShapeCasts S1x3072
  slices_S1x3072x3_S1x3072x1_0_0_1 : S1x3072x3.Slices ![0, 0, 1] S1x3072x1
  slices_S1x3072x3_S1x3072x1_0_0_2 : S1x3072x3.Slices ![0, 0, 2] S1x3072x1
  reducesTo_S1x8192x3072_S1x8192_d2 : S1x8192x3072.ReducesTo [2] S1x8192
  h_S_ : 0 < S_.numel
  bcast_S1x8192_S1x8192x1_0_1 : S1x8192.BroadcastsInDim S1x8192x1 (![0, 1] : Fin 2 → Fin S1x8192x1.rank)
  bcast_S_S1x8192x1 : S_.BroadcastsInDim S1x8192x1 (![] : Fin 0 → Fin S1x8192x1.rank)
  bcast_S1x8192x1_S1x8192x3072_0_1_2 : S1x8192x1.BroadcastsInDim S1x8192x3072 (![0, 1, 2] : Fin 3 → Fin S1x8192x3072.rank)
  bcast_S1x3072_S1x1x3072_0_2 : S1x3072.BroadcastsInDim S1x1x3072 (![0, 2] : Fin 2 → Fin S1x1x3072.rank)
  bcast_S1x1x3072_S1x8192x3072_0_1_2 : S1x1x3072.BroadcastsInDim S1x8192x3072 (![0, 1, 2] : Fin 3 → Fin S1x8192x3072.rank)
  dot_S1x3072_S3072x9216_S1x9216_1_0_0_1_n_n_wf : DotDims.WF S1x3072 S3072x9216 S1x9216 [1] [0] [0] [1] [] []

variable [Facts₀]

def dot_S1x3072_S3072x9216_S1x9216_1_0_0_1_n_n : DotDims S1x3072 S3072x9216 S1x9216 where
  lhsContracting := [1]
  rhsContracting := [0]
  lhsNonContracting := [0]
  rhsNonContracting := [1]
  lhsBatch := []
  rhsBatch := []
  wf := dot_S1x3072_S3072x9216_S1x9216_1_0_0_1_n_n_wf

class Facts : Prop extends Facts₀ where

variable [Facts]
-- ==== Proof.Spec.lean ====
/- The mathematics both programs compute, index by index, on the extended reals.

   A conditioning vector `emb` is passed through SiLU (`e · σ(e)`, σ the logistic function) and a linear layer:
   entry `n` of the modulation vector is `∑ₖ silu(embₖ) · W[n, k] + b[n]`. Read as a [3072, 3] table, its three
   columns are the shift, the scale and the gate. Each row of `x` is normalised — the row's mean subtracted, the
   result multiplied by the reciprocal square root of the row's mean square deviation plus ε — and then multiplied by
   the scale and moved by the shift, entry by entry along the row. -/
import Idealize.ShloMosaic.PureOps.Ideal
import Idealize.ShloMosaic.Lib.ValueIdx

noncomputable section

namespace Cert.Spec

open Idealize.ShloMosaic Idealize.ShloMosaic.ValueIdx

/-- The activations, one row of 3072 per position. -/
abbrev Sx : Shape := ⟨3, ![1, 8192, 3072]⟩
/-- A row vector of 3072 entries. -/
abbrev Srow : Shape := ⟨2, ![1, 3072]⟩
/-- The linear layer's weight, one row per output entry. -/
abbrev Sw : Shape := ⟨2, ![9216, 3072]⟩
/-- The linear layer's bias. -/
abbrev Sb : Shape := ⟨1, ![9216]⟩
/-- The modulation vector, as a row. -/
abbrev Se : Shape := ⟨2, ![1, 9216]⟩

/-- SiLU: `e · σ(e)`. -/
def silu (e : EReal) : EReal := e * Ideal.logistic e

/-- Entry `n` of the modulation vector, the bias given as a row: `∑ₖ silu(embₖ) · W[n, k] + b[n]`. -/
def modVecRow (emb : Srow.Idx → EReal) (W : Sw.Idx → EReal) (brow : Se.Idx → EReal) : Se.Idx → EReal :=
  fun i => (∑ k : Fin 3072, silu (emb (ix2 (0 : Fin 1) k)) * W (ix2 (⟨(i 1).val, (i 1).isLt⟩ : Fin 9216) k))
    + brow (ix2 (0 : Fin 1) (⟨(i 1).val, (i 1).isLt⟩ : Fin 9216))

/-- Entry `n` of the modulation vector: `∑ₖ silu(embₖ) · W[n, k] + b[n]`. -/
def modVec (emb : Srow.Idx → EReal) (W : Sw.Idx → EReal) (b : Sb.Idx → EReal) : Se.Idx → EReal :=
  modVecRow emb W fun i => b (ix1 (⟨(i 1).val, (i 1).isLt⟩ : Fin 9216))

/-- The row length as a float: 3072. -/
def rowLen : EReal := Ideal.ofBits .f32 0x45400000#32
/-- The ε added to the mean square deviation. -/
def eps : EReal := Ideal.ofBits .f32 0x358637BD#32

/-- The mean of row `r`. -/
def rowMean (x : Sx.Idx → EReal) (r : Fin 8192) : EReal :=
  Ideal.div (∑ k : Fin 3072, x (ix3 (0 : Fin 1) r k)) rowLen

/-- Entry `k` of row `r` with the row's mean subtracted. -/
def centred (x : Sx.Idx → EReal) (r : Fin 8192) (k : Fin 3072) : EReal :=
  x (ix3 (0 : Fin 1) r k) - rowMean x r

/-- The mean square deviation of row `r`. -/
def rowVar (x : Sx.Idx → EReal) (r : Fin 8192) : EReal :=
  Ideal.div (∑ k : Fin 3072, centred x r k * centred x r k) rowLen

/-- The normalised and modulated activations: at row `r`, entry `k`,
    `(x[r, k] − mean_r) · rsqrt(var_r + ε) · scale[k] + shift[k]`. -/
def lnMod (x : Sx.Idx → EReal) (scale shift : Srow.Idx → EReal) : Sx.Idx → EReal :=
  fun i => centred x ⟨(i 1).val, (i 1).isLt⟩ ⟨(i 2).val, (i 2).isLt⟩
      * Ideal.rsqrt (rowVar x ⟨(i 1).val, (i 1).isLt⟩ + eps)
      * scale (ix2 (0 : Fin 1) (⟨(i 2).val, (i 2).isLt⟩ : Fin 3072))
    + shift (ix2 (0 : Fin 1) (⟨(i 2).val, (i 2).isLt⟩ : Fin 3072))

end Cert.Spec

end
-- ==== Proof.GemvPayload.lean ====
/- The first kernel's body at one entry of its output block.

   The body multiplies the SiLU of the conditioning row (a [1, 3072] block) into a [1024, 3072] slab of the weight,
   contracting the 3072 axis of both, starting from a zero accumulator, and adds the bias block. A change of float
   format is the identity on the extended reals, the matrix product into a zero accumulator is the plain sum over
   the contracted axis, so entry `q` of the stored block is `∑ₖ silu(embₖ) · slab[q, k] + bias[q]`. -/
import proofs.«179751_j36112085025538_1_alg».proof.Proof.Gen.KernelIdeal.Skeleton
import proofs.«179751_j36112085025538_1_alg».proof.Proof.Spec
import Idealize.ShloMosaic.Lib.ValueIdx
import Idealize.ShloMosaic.Lib.Pipeline.Value
import Idealize.ShloMosaic.PureOps.Ideal.Laws

noncomputable section

namespace Cert.KernelIdeal.Gemv

open Idealize.ShloMosaic Idealize.ShloMosaic.TcCoe Idealize.ShloMosaic.ValueIdx
open Cert.KernelIdeal Cert.KernelIdeal.Gen

/-- The output entry's row coordinate is the left operand's. -/
theorem lhs_row (i : S1x1024.Idx) (q : dot_S1x3072_S1024x3072_S1x1024_1_1_0_0_n_n.contr.Idx) :
    (dot_S1x3072_S1024x3072_S1x1024_1_1_0_0_n_n.lhsIdx i q 0).val = (i 0).val := by
  unfold DotDims.lhsIdx
  rw [dif_neg (show ¬(0 : Fin S1x3072.rank) ∈ dot_S1x3072_S1024x3072_S1x1024_1_1_0_0_n_n.lhsBatch by decide), dif_pos (show (0 : Fin S1x3072.rank) ∈ dot_S1x3072_S1024x3072_S1x1024_1_1_0_0_n_n.lhsNonContracting by decide)]
  rfl
/-- The left operand's contracted coordinate is the summation index. -/
theorem lhs_contr (i : S1x1024.Idx) (q : dot_S1x3072_S1024x3072_S1x1024_1_1_0_0_n_n.contr.Idx) :
    (dot_S1x3072_S1024x3072_S1x1024_1_1_0_0_n_n.lhsIdx i q 1).val = (q ⟨0, by decide⟩).val :=
  dot_S1x3072_S1024x3072_S1x1024_1_1_0_0_n_n.lhsIdx_val_of_single rfl i q
/-- The output entry's column coordinate is the right operand's row. -/
theorem rhs_row (i : S1x1024.Idx) (q : dot_S1x3072_S1024x3072_S1x1024_1_1_0_0_n_n.contr.Idx) :
    (dot_S1x3072_S1024x3072_S1x1024_1_1_0_0_n_n.rhsIdx i q 0).val = (i 1).val := by
  unfold DotDims.rhsIdx
  rw [dif_neg (show ¬(0 : Fin S1024x3072.rank) ∈ dot_S1x3072_S1024x3072_S1x1024_1_1_0_0_n_n.rhsBatch by decide), dif_pos (show (0 : Fin S1024x3072.rank) ∈ dot_S1x3072_S1024x3072_S1x1024_1_1_0_0_n_n.rhsNonContracting by decide)]
  rfl
/-- The right operand's contracted coordinate is the summation index. -/
theorem rhs_contr (i : S1x1024.Idx) (q : dot_S1x3072_S1024x3072_S1x1024_1_1_0_0_n_n.contr.Idx) :
    (dot_S1x3072_S1024x3072_S1x1024_1_1_0_0_n_n.rhsIdx i q 1).val = (q ⟨0, by decide⟩).val :=
  dot_S1x3072_S1024x3072_S1x1024_1_1_0_0_n_n.rhsIdx_val_of_single rfl i q

/-- The matrix product into a zero accumulator, at entry (p, q): the sum over the contracted axis. -/
theorem matmul_entry (l : FVec Ideal S1x3072 .bf16) (r : FVec Ideal S1024x3072 .bf16) (p : Fin 1) (q : Fin 1024) :
    matmul dot_S1x3072_S1024x3072_S1x1024_1_1_0_0_n_n none l r (constant S1x1024 .f32 0x00000000#32) (ix2 p q)
      = ∑ k : Fin 3072, l (ix2 p k) * r (ix2 q k) := by
  refine (Ideal.matmul_constant_zero_apply dot_S1x3072_S1024x3072_S1x1024_1_1_0_0_n_n none l r (ix2 p q)).trans ?_
  rw [← Equiv.sum_comp (contrEquiv1 dot_S1x3072_S1024x3072_S1x1024_1_1_0_0_n_n 3072 rfl rfl).symm]
  refine Finset.sum_congr rfl fun k _ => ?_
  have hk := contrEquiv1_symm_val dot_S1x3072_S1024x3072_S1x1024_1_1_0_0_n_n 3072 rfl rfl k
  have el : dot_S1x3072_S1024x3072_S1x1024_1_1_0_0_n_n.lhsIdx (ix2 p q) ((contrEquiv1 dot_S1x3072_S1024x3072_S1x1024_1_1_0_0_n_n 3072 rfl rfl).symm k) = ix2 p k := funext fun a => Fin.ext (by
    match a with
    | ⟨0, _⟩ => exact lhs_row _ _
    | ⟨1, _⟩ => exact (lhs_contr _ _).trans hk)
  have er : dot_S1x3072_S1024x3072_S1x1024_1_1_0_0_n_n.rhsIdx (ix2 p q) ((contrEquiv1 dot_S1x3072_S1024x3072_S1x1024_1_1_0_0_n_n 3072 rfl rfl).symm k) = ix2 q k := funext fun a => Fin.ext (by
    match a with
    | ⟨0, _⟩ => exact rhs_row _ _
    | ⟨1, _⟩ => exact (rhs_contr _ _).trans hk)
  rw [el, er]

/-- Entry (p, q) of the block the body stores: `∑ₖ silu(emb[p, k]) · slab[q, k] + bias[p, q]`. -/
theorem pay_entry (emb : Vec Ideal S1x3072 .f32) (slab : Vec Ideal S1024x3072 .f32) (bias : Vec Ideal S1x1024 .f32)
    (p : Fin 1) (q : Fin 1024) :
    k0_pay1 (F := Ideal) emb slab bias (ix2 p q)
      = (∑ k : Fin 3072, Cert.Spec.silu (emb (ix2 p k)) * slab (ix2 q k)) + bias (ix2 p q) := by
  unfold k0_pay1
  show (matmul (F := Ideal) dot_S1x3072_S1024x3072_S1x1024_1_1_0_0_n_n none _ _ (constant S1x1024 .f32 0x00000000#32) (ix2 p q) : EReal)
      + (shapeCast S1x1024 bias shapeCasts_S1x1024_S1x1024 (ix2 p q) : EReal) = _
  rw [shapeCast_self, matmul_entry]
  rfl

end Cert.KernelIdeal.Gemv

end
-- ==== Proof.GemvArray.lean ====
/- The first region's output array after its nine grid points.

   Point `t` reads the whole conditioning row, rows `1024·t … 1024·t + 1023` of the weight and entries
   `1024·t … 1024·t + 1023` of the bias row, and writes entries `1024·t … 1024·t + 1023` of the output row. Each
   written entry is the modulation vector's entry at its own position, and the nine blocks tile the 9216 entries,
   so the array ends holding the modulation vector of the arrays the region found. -/
import proofs.«179751_j36112085025538_1_alg».proof.Proof.Gen.KernelIdeal.Frame
import proofs.«179751_j36112085025538_1_alg».proof.Proof.GemvPayload
import Idealize.ShloMosaic.Lib.Pipeline.Value

set_option maxRecDepth 16384

noncomputable section

namespace Cert.KernelIdeal.Gemv

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Which block each window is on at point `t`: the conditioning row's only block; the weight's `t`-th slab of rows;
    the `t`-th block of the bias row and of the output row. -/
theorem block_index : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- What point `t` writes back is block `t` of the modulation vector of the arrays as the region finds them. -/
theorem flushed_eq (c : Dev nD) (t : Fin cfg0.N) :
    (dat0 V c).flushed 3 t = ((cfg0.win 3).blk t).view.read (Elt Ideal)
      (Cert.Spec.modVecRow (V c main_arg1) (V c main_arg2) (V c main_v0)) := by
  show (cfg0.win 3).cut (grid0.coords t) ((dat0 V c).after 3 t) = _
  rw [after0_3]
  unfold out0_3
  rw [View.canon_unit_zero hz]
  simp only [View.ld_unit_zero (S := S1x3072) hz, View.ld_unit_zero (S := S1024x3072) hz, View.ld_unit_zero (S := S1x1024) hz]
  obtain ⟨e00, e01, e10, e11, e20, e21, e30, e31⟩ := block_index t
  funext j
  obtain ⟨p, q, rfl⟩ : ∃ (p : Fin 1) (q : Fin 1024), j = ix2 p q := ⟨j 0, j 1, eq_ix2 j⟩
  refine (pay_entry (iblk0 V c 0 t) (iblk0 V c 1 t) (iblk0 V c 2 t) p q).trans ?_
  have hp : p.val = 0 := by omega
  have h0 : ∀ k : Fin 3072, ((cfg0.win 0).blk t).view.emb (ix2 p k) = ix2 (0 : Fin 1) k := fun k => by
    funext a; apply Fin.ext
    match a with
    | ⟨0, _⟩ => show win0_0.index t (0 : Fin 2) * 1 + 1 * p.val = 0; omega
    | ⟨1, _⟩ => show win0_0.index t (1 : Fin 2) * 3072 + 1 * k.val = k.val; omega
  have h1 : ∀ k : Fin 3072, ((cfg0.win 1).blk t).view.emb (ix2 q k)
      = ix2 (⟨((((cfg0.win 3).blk t).view.emb (ix2 p q)) 1).val, ((((cfg0.win 3).blk t).view.emb (ix2 p q)) 1).isLt⟩ : Fin 9216) k := fun k => by
    funext a; apply Fin.ext
    match a with
    | ⟨0, _⟩ => show win0_1.index t (0 : Fin 2) * 1024 + 1 * q.val = win0_3.index t (1 : Fin 2) * 1024 + 1 * q.val; omega
    | ⟨1, _⟩ => show win0_1.index t (1 : Fin 2) * 3072 + 1 * k.val = k.val; omega
  have h2 : ((cfg0.win 2).blk t).view.emb (ix2 p q)
      = ix2 (0 : Fin 1) (⟨((((cfg0.win 3).blk t).view.emb (ix2 p q)) 1).val, ((((cfg0.win 3).blk t).view.emb (ix2 p q)) 1).isLt⟩ : Fin 9216) := by
    funext a; apply Fin.ext
    match a with
    | ⟨0, _⟩ => show win0_2.index t (0 : Fin 2) * 1 + 1 * p.val = 0; omega
    | ⟨1, _⟩ => show win0_2.index t (1 : Fin 2) * 1024 + 1 * q.val = win0_3.index t (1 : Fin 2) * 1024 + 1 * q.val; omega
  show (∑ k : Fin 3072, Cert.Spec.silu (V c main_arg1 (((cfg0.win 0).blk t).view.emb (ix2 p k)))
        * V c main_arg2 (((cfg0.win 1).blk t).view.emb (ix2 q k)))
      + V c main_v0 (((cfg0.win 2).blk t).view.emb (ix2 p q))
    = Cert.Spec.modVecRow (V c main_arg1) (V c main_arg2) (V c main_v0) (((cfg0.win 3).blk t).view.emb (ix2 p q))
  unfold Cert.Spec.modVecRow
  rw [h2]
  refine congrArg (· + _) (Finset.sum_congr rfl fun k _ => ?_)
  rw [h0 k, h1 k]

/-- An entry of the output row is in point `t`'s block iff each coordinate is in the block's range on its axis. -/
theorem mem_blk (t : Fin cfg0.N) (i : S1x9216.Idx) :
    i ∈ ((cfg0.win 3).blk t).view.set ↔ ∀ a : Fin 2, win0_3.index t a * S1x1024.size a ≤ (i a).val ∧ (i a).val < win0_3.index t a * S1x1024.size a + S1x1024.size a := by
  show i ∈ ((View.whole main_v1).slice (win0_3.rect t)).set ↔ _
  rw [View.set_slice_whole, Rect.mem_set_unit]
  exact Iff.rfl

/-- Every entry of the output row is in the block of the point `entry / 1024`. -/
theorem cover (i : S1x9216.Idx) : ∃ t : Fin cfg0.N, (cfg0.win 3).flush t = true ∧ i ∈ ((cfg0.win 3).blk t).view.set := by
  have hi0 : (i 0).val < 1 := (i 0).isLt
  have hi1 : (i 1).val < 9216 := (i 1).isLt
  have hN : cfg0.N = 9 := N_0
  obtain ⟨t, ht⟩ : ∃ t : Fin cfg0.N, t.val = (i 1).val / 1024 := ⟨⟨(i 1).val / 1024, by rw [hN]; omega⟩, rfl⟩
  obtain ⟨e00, e01, e10, e11, e20, e21, e30, e31⟩ := block_index t
  refine ⟨t, flush0_3 t, ?_⟩
  rw [mem_blk]
  intro a
  match a with
  | ⟨0, _⟩ => show win0_3.index t (0 : Fin 2) * 1 ≤ (i 0).val ∧ (i 0).val < win0_3.index t (0 : Fin 2) * 1 + 1; omega
  | ⟨1, _⟩ => show win0_3.index t (1 : Fin 2) * 1024 ≤ (i 1).val ∧ (i 1).val < win0_3.index t (1 : Fin 2) * 1024 + 1024; omega

/-- The output array after the region: the modulation vector of the arrays the region found. -/
theorem final (c : Dev nD) : (dat0 V c).arrAt 3 cfg0.N
    = Cert.Spec.modVecRow (V c main_arg1) (V c main_arg2) (V c main_v0) :=
  (dat0 V c).arrAt_eq_of_cover 3 _ (fun t _ => flushed_eq V c t) cover

end Cert.KernelIdeal.Gemv

end
-- ==== Proof.LnPayload.lean ====
/- The second kernel's body at one entry of its output block.

   The body takes a [1, 256, 3072] block of rows. For each row it sums the 3072 entries and divides by 3072 (the mean),
   subtracts the mean from every entry, sums the squares of the differences and divides by 3072 (the mean square
   deviation), adds ε and takes the reciprocal square root; every entry's difference is multiplied by that, then by the
   scale row's entry in its column, and the shift row's entry in its column is added. The sums are the lane reduction read
   as a finite sum; the reshapes and broadcasts between the per-row column [1, 256, 1] and the block only move indices. -/
import proofs.«179751_j36112085025538_1_alg».proof.Proof.Gen.KernelIdeal.Skeleton
import proofs.«179751_j36112085025538_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Ln

open Idealize.ShloMosaic Idealize.ShloMosaic.TcCoe Idealize.ShloMosaic.ValueIdx
open Cert.KernelIdeal Cert.KernelIdeal.Gen

/-! ## Index moves between a block, its per-row column, and a row -/

variable {α : Type}

/-- A per-row vector [1, 256] viewed as a column [1, 256, 1]: the column's entry for row `r` is the vector's. -/
theorem col_of_rows (v : S1x256.Idx → α) (h : S1x256.ShapeCasts S1x256x1) (p : Fin 1) (r : Fin 256) (u : Fin 1) :
    shapeCast S1x256x1 v h (ix3 p r u) = v (ix2 p r) :=
  shapeCast_apply v h _ _ (by
    have hu : u.val = 0 := by omega
    rw [Shape.rowMajor_val_three, Shape.rowMajor_val_two]
    show p.val * 256 + r.val = (p.val * 256 + r.val) * 1 + u.val
    omega)

/-- A column [1, 256, 1] spread along the rows of a [1, 256, 3072] block: every entry of row `r` reads the column's entry
    for `r`. -/
theorem spread_col (v : S1x256x1.Idx → α) (h : S1x256x1.Broadcasts S1x256x3072) (p : Fin 1) (r : Fin 256) (k : Fin 3072) :
    broadcastTo S1x256x3072 v h (ix3 p r k) = v (ix3 (0 : Fin 1) r (0 : Fin 1)) :=
  broadcastTo_apply v h (ix3 p r k) (ix3 (0 : Fin 1) r (0 : Fin 1)) fun a => by
    match a with
    | ⟨0, _⟩ => show 0 = if (1 : Nat) = 1 then 0 else p.val; rw [if_pos rfl]
    | ⟨1, _⟩ => show r.val = if (256 : Nat) = 1 then 0 else r.val; rw [if_neg (by decide)]
    | ⟨2, _⟩ => show 0 = if (1 : Nat) = 1 then 0 else k.val; rw [if_pos rfl]

/-- A row [1, 1, 3072] spread over the 256 rows of a block: entry `k` of every row reads the row's entry `k`. -/
theorem spread_row (v : S1x1x3072.Idx → α) (h : S1x1x3072.Broadcasts S1x256x3072) (p : Fin 1) (r : Fin 256) (k : Fin 3072) :
    broadcastTo S1x256x3072 v h (ix3 p r k) = v (ix3 (0 : Fin 1) (0 : Fin 1) k) :=
  broadcastTo_apply v h (ix3 p r k) (ix3 (0 : Fin 1) (0 : Fin 1) k) fun a => by
    match a with
    | ⟨0, _⟩ => show 0 = if (1 : Nat) = 1 then 0 else p.val; rw [if_pos rfl]
    | ⟨1, _⟩ => show 0 = if (1 : Nat) = 1 then 0 else r.val; rw [if_pos rfl]
    | ⟨2, _⟩ => show k.val = if (3072 : Nat) = 1 then 0 else k.val; rw [if_neg (by decide)]

/-- A [1, 3072] row given a unit middle axis: the same entries. -/
theorem row_as_111 (v : S1x3072.Idx → α) (h1 : S1x3072.ShapeCasts S1x3072) (h2 : S1x3072.ShapeCasts S1x1x3072) (k : Fin 3072) :
    shapeCast S1x1x3072 (shapeCast S1x3072 v h1) h2 (ix3 (0 : Fin 1) (0 : Fin 1) k) = v (ix2 (0 : Fin 1) k) := by
  rw [shapeCast_self]
  exact shapeCast_ab_1ab_apply v h2 0 0 k

/-- The lane sum of a block at row `r`: the sum of the row's 3072 entries. -/
theorem lane_sum (v : FVec Ideal S1x256x3072 .f32) (p : Fin 1) (r : Fin 256) :
    multiReduction .add [2] S1x256 v 0x00000000#32 reduces_S1x256x3072_S1x256 (.inl rfl) rfl (ix2 p r)
      = ∑ k : Fin 3072, v (ix3 p r k) :=
  (Ideal.multiReduction_add_single v 0x00000000#32 reduces_S1x256x3072_S1x256 (.inl rfl) rfl (ix2 p r)).trans
    (Finset.sum_congr rfl fun k _ => congrArg v (funext fun a => Fin.ext (by
      match a with | ⟨0, _⟩ => rfl | ⟨1, _⟩ => rfl | ⟨2, _⟩ => rfl)))

/-! ## The body's stages -/

/-- The mean of row `r` of a block. -/
def blockMean (x : FVec Ideal S1x256x3072 .f32) (r : Fin 256) : EReal :=
  Ideal.div (∑ k : Fin 3072, x (ix3 (0 : Fin 1) r k)) Cert.Spec.rowLen
/-- Entry `k` of row `r` with the row's mean subtracted. -/
def blockCentred (x : FVec Ideal S1x256x3072 .f32) (r : Fin 256) (k : Fin 3072) : EReal :=
  x (ix3 (0 : Fin 1) r k) - blockMean x r
/-- The mean square deviation of row `r`. -/
def blockVar (x : FVec Ideal S1x256x3072 .f32) (r : Fin 256) : EReal :=
  Ideal.div (∑ k : Fin 3072, blockCentred x r k * blockCentred x r k) Cert.Spec.rowLen

/-- The column of row means, as the body computes it. -/
def meanCol (x : FVec Ideal S1x256x3072 .f32) : FVec Ideal S1x256x1 .f32 :=
  divf (shapeCast S1x256x1 (multiReduction .add [2] S1x256 x 0x00000000#32 reduces_S1x256x3072_S1x256 (.inl rfl) rfl) shapeCasts_S1x256_S1x256x1)
    (broadcast S1x256x1 (Scalar.ofBits (F := Ideal) .f32 0x45400000#32))

theorem meanCol_apply (x : FVec Ideal S1x256x3072 .f32) (r : Fin 256) :
    meanCol x (ix3 (0 : Fin 1) r (0 : Fin 1)) = blockMean x r := by
  unfold meanCol blockMean
  rw [divf_apply, col_of_rows, lane_sum]
  rfl

/-- The block with each row's mean subtracted, as the body computes it. -/
def centredBlock (x : FVec Ideal S1x256x3072 .f32) : FVec Ideal S1x256x3072 .f32 :=
  subf x (broadcastTo S1x256x3072 (meanCol x) broadcasts_S1x256x1_S1x256x3072)

theorem centredBlock_apply (x : FVec Ideal S1x256x3072 .f32) (r : Fin 256) (k : Fin 3072) :
    centredBlock x (ix3 (0 : Fin 1) r k) = blockCentred x r k := by
  unfold centredBlock blockCentred
  rw [subf_apply, spread_col, meanCol_apply]

/-- The column of reciprocal deviations `rsqrt(var + ε)`, as the body computes it. -/
def rstdCol (x : FVec Ideal S1x256x3072 .f32) : FVec Ideal S1x256x1 .f32 :=
  rsqrt (addf
    (divf (shapeCast S1x256x1 (multiReduction .add [2] S1x256 (mulf (centredBlock x) (centredBlock x)) 0x00000000#32 reduces_S1x256x3072_S1x256 (.inl rfl) rfl) shapeCasts_S1x256_S1x256x1)
      (broadcast S1x256x1 (Scalar.ofBits (F := Ideal) .f32 0x45400000#32)))
    (broadcast S1x256x1 (Scalar.ofBits (F := Ideal) .f32 0x358637BD#32)))

theorem rstdCol_apply (x : FVec Ideal S1x256x3072 .f32) (r : Fin 256) :
    rstdCol x (ix3 (0 : Fin 1) r (0 : Fin 1)) = Ideal.rsqrt (blockVar x r + Cert.Spec.eps) := by
  unfold rstdCol blockVar
  show Ideal.rsqrt (Ideal.div (shapeCast S1x256x1 _ shapeCasts_S1x256_S1x256x1 (ix3 (0 : Fin 1) r (0 : Fin 1))) Cert.Spec.rowLen + Cert.Spec.eps) = _
  rw [col_of_rows, lane_sum]
  simp only [mulf_apply, centredBlock_apply]

/-- The body's stored value is these stages composed. -/
theorem pay_eq (x : Vec Ideal S1x256x3072 .f32) (scale shift : Vec Ideal S1x3072 .f32) :
    k1_pay1 (F := Ideal) x scale shift
      = addf (mulf (mulf (centredBlock x) (broadcastTo S1x256x3072 (rstdCol x) broadcasts_S1x256x1_S1x256x3072))
          (broadcastTo S1x256x3072 (shapeCast S1x1x3072 (shapeCast S1x3072 scale shapeCasts_S1x3072_S1x3072) shapeCasts_S1x3072_S1x1x3072) broadcasts_S1x1x3072_S1x256x3072))
        (broadcastTo S1x256x3072 (shapeCast S1x1x3072 (shapeCast S1x3072 shift shapeCasts_S1x3072_S1x3072) shapeCasts_S1x3072_S1x1x3072) broadcasts_S1x1x3072_S1x256x3072) := rfl

/-- Entry (r, k) of the block the body stores:
    `(x[r, k] − mean_r) · rsqrt(var_r + ε) · scale[k] + shift[k]`. -/
theorem pay_entry (x : Vec Ideal S1x256x3072 .f32) (scale shift : Vec Ideal S1x3072 .f32) (r : Fin 256) (k : Fin 3072) :
    k1_pay1 (F := Ideal) x scale shift (ix3 (0 : Fin 1) r k)
      = blockCentred x r k * Ideal.rsqrt (blockVar x r + Cert.Spec.eps) * scale (ix2 (0 : Fin 1) k) + shift (ix2 (0 : Fin 1) k) := by
  rw [pay_eq]
  simp only [addf_apply, mulf_apply]
  rw [centredBlock_apply, spread_col, rstdCol_apply, spread_row, spread_row, row_as_111, row_as_111]

end Cert.KernelIdeal.Ln

end
-- ==== Proof.LnArray.lean ====
/- The second region's output array after its thirty-two grid points.

   Point `t` reads rows `256·t … 256·t + 255` of the activations and the whole shift and scale rows, and writes the
   same rows of the output. A row's mean and mean square deviation depend on that row only, so each written entry is
   the normalised and modulated activation at its own position, and the thirty-two blocks tile the 8192 rows. -/
import proofs.«179751_j36112085025538_1_alg».proof.Proof.Gen.KernelIdeal.Frame
import proofs.«179751_j36112085025538_1_alg».proof.Proof.LnPayload
import Idealize.ShloMosaic.Lib.Pipeline.Value

set_option maxRecDepth 16384

noncomputable section

namespace Cert.KernelIdeal.Ln

open Idealize.ShloMosaic Idealize.ShloMosaic.TcCoe Idealize.ShloMosaic.ValueIdx Idealize.SL.Sem
open Idealize.ShloMosaic.Pipeline (Dat)
open Cert.KernelIdeal Cert.KernelIdeal.Gen

/-- A block's row that is a row of the whole array has that row's mean, differences and mean square deviation. -/
theorem row_stats (B : FVec Ideal S1x256x3072 .f32) (X : Cert.Spec.Sx.Idx → EReal) (r : Fin 256) (R : Fin 8192)
    (h : ∀ k : Fin 3072, B (ix3 (0 : Fin 1) r k) = X (ix3 (0 : Fin 1) R k)) :
    (∀ k, blockCentred B r k = Cert.Spec.centred X R k) ∧ blockVar B r = Cert.Spec.rowVar X R := by
  have hm : blockMean B r = Cert.Spec.rowMean X R := by
    unfold blockMean Cert.Spec.rowMean
    rw [Finset.sum_congr rfl fun k _ => h k]
  have hc : ∀ k, blockCentred B r k = Cert.Spec.centred X R k := fun k => by
    unfold blockCentred Cert.Spec.centred
    rw [h k, hm]
  refine ⟨hc, ?_⟩
  unfold blockVar Cert.Spec.rowVar
  rw [Finset.sum_congr rfl fun k _ => by rw [hc k]]

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- Which block each window is on at point `t`: the `t`-th block of rows of the activations and of the output; the
    shift and scale rows' only block. -/
theorem block_index : ∀ t : Fin cfg1.N, win1_0.index t (0 : Fin 3) = 0 ∧ win1_0.index t (1 : Fin 3) = t.val ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = 0 ∧ win1_3.index t (1 : Fin 3) = t.val ∧ win1_3.index t (2 : Fin 3) = 0 :=
  (by decide +kernel : ∀ t : Fin grid1.N, _)

/-- What point `t` writes back is block `t` of the normalised and modulated activations of the arrays as the region
    finds them. -/
theorem flushed_eq (c : Dev nD) (t : Fin cfg1.N) :
    (dat1 V c).flushed 3 t = ((cfg1.win 3).blk t).view.read (Elt Ideal)
      (Cert.Spec.lnMod (V c main_arg0) (V c main_v6) (V c main_v4)) := by
  show (cfg1.win 3).cut (grid1.coords t) ((dat1 V c).after 3 t) = _
  rw [after1_3]
  unfold out1_3
  rw [View.canon_unit_zero hz3]
  simp only [View.ld_unit_zero (S := S1x256x3072) hz3, View.ld_unit_zero (S := S1x3072) hz2]
  obtain ⟨e00, e01, e02, e10, e11, e20, e21, e30, e31, e32⟩ := block_index t
  funext j
  obtain ⟨p, r, k, rfl⟩ : ∃ (p : Fin 1) (r : Fin 256) (k : Fin 3072), j = ix3 p r k := ⟨j 0, j 1, j 2, eq_ix3 j⟩
  obtain rfl : p = 0 := Fin.ext (by omega)
  refine (pay_entry (iblk1 V c 0 t) (iblk1 V c 2 t) (iblk1 V c 1 t) r k).trans ?_
  have hB : ∀ k' : Fin 3072, ((cfg1.win 0).blk t).view.emb (ix3 (0 : Fin 1) r k')
      = ix3 (0 : Fin 1) (⟨((((cfg1.win 3).blk t).view.emb (ix3 (0 : Fin 1) r k)) 1).val, ((((cfg1.win 3).blk t).view.emb (ix3 (0 : Fin 1) r k)) 1).isLt⟩ : Fin 8192) k' := fun k' => by
    funext a; apply Fin.ext
    match a with
    | ⟨0, _⟩ => show win1_0.index t (0 : Fin 3) * 1 + 1 * 0 = 0; omega
    | ⟨1, _⟩ => show win1_0.index t (1 : Fin 3) * 256 + 1 * r.val = win1_3.index t (1 : Fin 3) * 256 + 1 * r.val; omega
    | ⟨2, _⟩ => show win1_0.index t (2 : Fin 3) * 3072 + 1 * k'.val = k'.val; omega
  have hK : (⟨((((cfg1.win 3).blk t).view.emb (ix3 (0 : Fin 1) r k)) 2).val, ((((cfg1.win 3).blk t).view.emb (ix3 (0 : Fin 1) r k)) 2).isLt⟩ : Fin 3072) = k :=
    Fin.ext (by show win1_3.index t (2 : Fin 3) * 3072 + 1 * k.val = k.val; omega)
  have h1 : ((cfg1.win 1).blk t).view.emb (ix2 (0 : Fin 1) k) = ix2 (0 : Fin 1) k := by
    funext a; apply Fin.ext
    match a with
    | ⟨0, _⟩ => show win1_1.index t (0 : Fin 2) * 1 + 1 * 0 = 0; omega
    | ⟨1, _⟩ => show win1_1.index t (1 : Fin 2) * 3072 + 1 * k.val = k.val; omega
  have h2 : ((cfg1.win 2).blk t).view.emb (ix2 (0 : Fin 1) k) = ix2 (0 : Fin 1) k := by
    funext a; apply Fin.ext
    match a with
    | ⟨0, _⟩ => show win1_2.index t (0 : Fin 2) * 1 + 1 * 0 = 0; omega
    | ⟨1, _⟩ => show win1_2.index t (1 : Fin 2) * 3072 + 1 * k.val = k.val; omega
  obtain ⟨hc, hv⟩ := row_stats (iblk1 V c 0 t) (V c main_arg0) r _ fun k' =>
    (show (iblk1 V c 0 t : S1x256x3072.Idx → EReal) (ix3 (0 : Fin 1) r k')
        = V c main_arg0 (((cfg1.win 0).blk t).view.emb (ix3 (0 : Fin 1) r k')) from rfl).trans (congrArg (V c main_arg0) (hB k'))
  rw [hc k, hv]
  show _ * _ * V c main_v6 (((cfg1.win 2).blk t).view.emb (ix2 (0 : Fin 1) k)) + V c main_v4 (((cfg1.win 1).blk t).view.emb (ix2 (0 : Fin 1) k))
    = Cert.Spec.lnMod (V c main_arg0) (V c main_v6) (V c main_v4) (((cfg1.win 3).blk t).view.emb (ix3 (0 : Fin 1) r k))
  unfold Cert.Spec.lnMod
  rw [h1, h2, hK]

/-- An entry of the output is in point `t`'s block iff each coordinate is in the block's range on its axis. -/
theorem mem_blk (t : Fin cfg1.N) (i : S1x8192x3072.Idx) :
    i ∈ ((cfg1.win 3).blk t).view.set ↔ ∀ a : Fin 3, win1_3.index t a * S1x256x3072.size a ≤ (i a).val ∧ (i a).val < win1_3.index t a * S1x256x3072.size a + S1x256x3072.size a := by
  show i ∈ ((View.whole main_v9).slice (win1_3.rect t)).set ↔ _
  rw [View.set_slice_whole, Rect.mem_set_unit]
  exact Iff.rfl

/-- Every entry of the output is in the block of the point `row / 256`. -/
theorem cover (i : S1x8192x3072.Idx) : ∃ t : Fin cfg1.N, (cfg1.win 3).flush t = true ∧ i ∈ ((cfg1.win 3).blk t).view.set := by
  have hi0 : (i 0).val < 1 := (i 0).isLt
  have hi1 : (i 1).val < 8192 := (i 1).isLt
  have hi2 : (i 2).val < 3072 := (i 2).isLt
  have hN : cfg1.N = 32 := N_1
  obtain ⟨t, ht⟩ : ∃ t : Fin cfg1.N, t.val = (i 1).val / 256 := ⟨⟨(i 1).val / 256, by rw [hN]; omega⟩, rfl⟩
  obtain ⟨e00, e01, e02, e10, e11, e20, e21, e30, e31, e32⟩ := block_index t
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 256 ≤ (i 1).val ∧ (i 1).val < win1_3.index t (1 : Fin 3) * 256 + 256; omega
  | ⟨2, _⟩ => show win1_3.index t (2 : Fin 3) * 3072 ≤ (i 2).val ∧ (i 2).val < win1_3.index t (2 : Fin 3) * 3072 + 3072; omega

/-- The output array after the region: the normalised and modulated activations of the arrays the region found. -/
theorem final (c : Dev nD) : (dat1 V c).arrAt 3 cfg1.N
    = Cert.Spec.lnMod (V c main_arg0) (V c main_v6) (V c main_v4) :=
  (dat1 V c).arrAt_eq_of_cover 3 _ (fun t _ => flushed_eq V c t) cover

end Cert.KernelIdeal.Ln

end
-- ==== Proof.RefValue.lean ====
/- The reference computes the specification.

   Its SiLU is spelt `e · (1 / (1 + exp(−e)))`, which is `e · σ(e)` by the definition of the logistic function on
   the extended reals; its linear layer is a `dot_general` against the transposed weight plus the broadcast bias, a sum
   over the 3072 shared entries; its row mean and mean square deviation are host sums from a zero initial value
   divided by 3072. Read at an index, stage by stage, each is the specification's term. -/
import proofs.«179751_j36112085025538_1_alg».proof.Defs
import proofs.«179751_j36112085025538_1_alg».proof.Proof.Gen.ReferenceIdeal.Run
import proofs.«179751_j36112085025538_1_alg».proof.Proof.Gen.ReferenceIdeal.Read
import proofs.«179751_j36112085025538_1_alg».proof.Proof.Spec
import Idealize.ShloMosaic.PureOps.IdealRules
import Idealize.ShloMosaic.PureOps.Ideal.Laws

noncomputable section

namespace Cert.ReferenceIdeal.RefValue

open Idealize.ShloMosaic Idealize.ShloMosaic.TcCoe Idealize.ShloMosaic.ValueIdx
open Cert.ReferenceIdeal Cert.ReferenceIdeal.Gen Cert.ReferenceIdeal.Read

/-- The float word of 1.0 reads 1. -/
theorem one_word : Ideal.ofBits .f32 0x3F800000#32 = 1 := IdealRules.sign_bit.ideal_onePat .f32

/-! ## The modulation vector -/

/-- The reference's SiLU of the conditioning row at entry `k`. -/
theorem silu_entry (emb : (⟨S1x3072, .f32⟩ : BufTy).Contents (Elt Ideal)) (i : S1x3072.Idx) :
    val_main_v0 (F := Ideal) emb i = Cert.Spec.silu (emb i) := by
  rw [val_main_v0_apply, val_main_call0_v5_apply, val_main_call0_v4_apply, val_main_call0_cst_0_apply,
    val_main_call0_v3_apply, val_main_call0_v2_apply, val_main_call0_cst_apply, val_main_call0_v1_apply,
    val_main_call0_v0_apply]
  simp only [Ideal.mulf_def, Ideal.hostDivf_def, Ideal.addf_def, Ideal.hostUnary_exp_def, Ideal.hostNegf_def, Ideal.negf_def,
    Ideal.ofBits_def, one_word]
  rfl

/-- The reference's linear layer is the modulation vector. -/
theorem modVec_eq (emb : (⟨S1x3072, .f32⟩ : BufTy).Contents (Elt Ideal)) (W : (⟨S9216x3072, .f32⟩ : BufTy).Contents (Elt Ideal))
    (b : (⟨S9216, .f32⟩ : BufTy).Contents (Elt Ideal)) :
    val_main_v4 (F := Ideal) emb W b = Cert.Spec.modVec emb W b := by
  funext i
  have hi0 : (i 0).val = 0 := by have h : (i 0).val < 1 := (i 0).isLt; omega
  rw [val_main_v4_apply, val_main_v2_apply, val_main_v3_apply]
  unfold Cert.Spec.modVec Cert.Spec.modVecRow
  refine congrArg₂ (· + ·) (Finset.sum_congr rfl fun k _ => ?_) (congrArg b ?_)
  · rw [silu_entry, val_main_v1_apply]
    refine congrArg₂ (fun u v => Cert.Spec.silu (emb u) * W v) ?_ ?_
    · funext a; apply Fin.ext
      match a with
      | ⟨0, _⟩ => exact hi0
      | ⟨1, _⟩ => rfl
    · funext a; apply Fin.ext
      match a with
      | ⟨0, _⟩ => rfl
      | ⟨1, _⟩ => rfl
  · funext a; apply Fin.ext
    match a with
    | ⟨0, _⟩ => rfl

/-! ## The normalised and modulated activations -/

/-- The column of row means. -/
theorem mean_col (x : (⟨S1x8192x3072, .f32⟩ : BufTy).Contents (Elt Ideal)) (r : Fin 8192) (u : Fin 1) :
    val_main_v15 (F := Ideal) x (ix3 (0 : Fin 1) r u) = Cert.Spec.rowMean x r := by
  rw [val_main_v15_apply, val_main_v13_apply, val_main_v12_apply, val_main_v14_apply, val_main_cst_0_apply, val_main_cst_apply]
  unfold Cert.Spec.rowMean Cert.Spec.rowLen
  simp only [Ideal.hostDivf_def, Ideal.ofBits_def, Ideal.ofBits_zero_f32, zero_add]
  refine congrArg (Ideal.div · _) (Finset.sum_congr rfl fun k _ => congrArg x ?_)
  funext a; apply Fin.ext
  match a with
  | ⟨0, _⟩ => rfl
  | ⟨1, _⟩ => rfl
  | ⟨2, _⟩ => rfl

/-- An entry with its row's mean subtracted (the copy the squares are taken of). -/
theorem centred_sq (x : (⟨S1x8192x3072, .f32⟩ : BufTy).Contents (Elt Ideal)) (r : Fin 8192) (k : Fin 3072) :
    val_main_v17 (F := Ideal) x (ix3 (0 : Fin 1) r k) = Cert.Spec.centred x r k := by
  have e : idx_main_v16 (ix3 (0 : Fin 1) r k) = ix3 (0 : Fin 1) r (0 : Fin 1) := by
    funext a; apply Fin.ext
    match a with
    | ⟨0, _⟩ => rfl
    | ⟨1, _⟩ => rfl
    | ⟨2, _⟩ => rfl
  rw [val_main_v17_apply, val_main_v16_apply, e, mean_col]
  rfl

/-- An entry with its row's mean subtracted (the copy that is normalised). -/
theorem centred_out (x : (⟨S1x8192x3072, .f32⟩ : BufTy).Contents (Elt Ideal)) (r : Fin 8192) (k : Fin 3072) :
    val_main_v24 (F := Ideal) x (ix3 (0 : Fin 1) r k) = Cert.Spec.centred x r k := by
  have e : idx_main_v23 (ix3 (0 : Fin 1) r k) = ix3 (0 : Fin 1) r (0 : Fin 1) := by
    funext a; apply Fin.ext
    match a with
    | ⟨0, _⟩ => rfl
    | ⟨1, _⟩ => rfl
    | ⟨2, _⟩ => rfl
  rw [val_main_v24_apply, val_main_v23_apply, e, mean_col]
  rfl

/-- The column of reciprocal deviations. -/
theorem rstd_col (x : (⟨S1x8192x3072, .f32⟩ : BufTy).Contents (Elt Ideal)) (r : Fin 8192) (u : Fin 1) :
    val_main_v27 (F := Ideal) x (ix3 (0 : Fin 1) r u) = Ideal.rsqrt (Cert.Spec.rowVar x r + Cert.Spec.eps) := by
  rw [val_main_v27_apply, val_main_v26_apply, val_main_v22_apply, val_main_v20_apply, val_main_v19_apply, val_main_v21_apply,
    val_main_cst_2_apply, val_main_cst_1_apply, val_main_v25_apply, val_main_cst_3_apply]
  unfold Cert.Spec.rowVar Cert.Spec.rowLen Cert.Spec.eps
  simp only [Ideal.hostUnary_rsqrt_def, Ideal.addf_def, Ideal.hostDivf_def, Ideal.ofBits_def, Ideal.ofBits_zero_f32, zero_add]
  refine congrArg (fun s => Ideal.rsqrt (Ideal.div s _ + _)) (Finset.sum_congr rfl fun k _ => ?_)
  rw [val_main_v18_apply]
  have e : idx_main_v19 (idx_main_v20 (ix3 (0 : Fin 1) r u)) k = ix3 (0 : Fin 1) r k := by
    funext a; apply Fin.ext
    match a with
    | ⟨0, _⟩ => rfl
    | ⟨1, _⟩ => rfl
    | ⟨2, _⟩ => rfl
  rw [e, centred_sq]
  rfl

/-- The reference's result is the specification's, of the scale and shift columns of its modulation vector. -/
theorem lnMod_eq (x : (⟨S1x8192x3072, .f32⟩ : BufTy).Contents (Elt Ideal)) (emb : (⟨S1x3072, .f32⟩ : BufTy).Contents (Elt Ideal))
    (W : (⟨S9216x3072, .f32⟩ : BufTy).Contents (Elt Ideal)) (b : (⟨S9216, .f32⟩ : BufTy).Contents (Elt Ideal)) :
    val_main_v35 (F := Ideal) x emb W b
      = Cert.Spec.lnMod x (val_main_v9 (F := Ideal) emb W b) (val_main_v7 (F := Ideal) emb W b) := by
  funext i
  obtain ⟨p, r, k, rfl⟩ : ∃ (p : Fin 1) (r : Fin 8192) (k : Fin 3072), i = ix3 p r k := ⟨i 0, i 1, i 2, eq_ix3 i⟩
  obtain rfl : p = 0 := Fin.ext (by omega)
  rw [val_main_v35_apply, val_main_v32_apply, val_main_v29_apply, val_main_v28_apply, val_main_v31_apply, val_main_v30_apply,
    val_main_v34_apply, val_main_v33_apply, centred_out]
  have e28 : idx_main_v28 (ix3 (0 : Fin 1) r k) = ix3 (0 : Fin 1) r (0 : Fin 1) := by
    funext a; apply Fin.ext
    match a with
    | ⟨0, _⟩ => rfl
    | ⟨1, _⟩ => rfl
    | ⟨2, _⟩ => rfl
  have e30 : idx_main_v30 (idx_main_v31 (ix3 (0 : Fin 1) r k)) = ix2 (0 : Fin 1) k := by
    funext a; apply Fin.ext
    match a with
    | ⟨0, _⟩ => rfl
    | ⟨1, _⟩ => rfl
  have e33 : idx_main_v33 (idx_main_v34 (ix3 (0 : Fin 1) r k)) = ix2 (0 : Fin 1) k := by
    funext a; apply Fin.ext
    match a with
    | ⟨0, _⟩ => rfl
    | ⟨1, _⟩ => rfl
  rw [e28, rstd_col, e30, e33]
  rfl

end Cert.ReferenceIdeal.RefValue

end
-- ==== Proof.Glue.lean ====
/- The program's two results as functions of its arguments.

   The first host stretch only views the bias as a row. The first region then leaves the modulation vector in its
   output row. The second stretch views that row as a [3072, 3] table and takes its three columns: the shift, the
   scale and the gate. The second region reads the activations (untouched so far), the shift and the scale, and leaves
   the normalised and modulated activations in its output; the gate is the program's second result as it stands.
   The reference takes the same three columns of the same vector by the same operations, so each column is the
   reference's own stage of the arguments. -/
import proofs.«179751_j36112085025538_1_alg».proof.Proof.KernelRun
import proofs.«179751_j36112085025538_1_alg».proof.Proof.GemvArray
import proofs.«179751_j36112085025538_1_alg».proof.Proof.LnArray
import proofs.«179751_j36112085025538_1_alg».proof.Proof.RefValue
import Idealize.ShloMosaic.Lib.ValueLayout
import Idealize.ShloMosaic.Lib.StableHlo.Run

set_option maxRecDepth 16384

noncomputable section

namespace Cert.KernelIdeal.Glue

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-! ## What the first region finds -/

theorem entry0_emb (c : Dev nD) : V1 m ρ c main_arg1 = m ((c : Thread nD τ).loc main_arg1) := by
  show StableHlo.after hostOps0 (W0 m ρ c) (Proc.devRef .tc main_arg1) = _
  after_results

theorem entry0_W (c : Dev nD) : V1 m ρ c main_arg2 = m ((c : Thread nD τ).loc main_arg2) := by
  show StableHlo.after hostOps0 (W0 m ρ c) (Proc.devRef .tc main_arg2) = _
  after_results

/-- The bias viewed as a row. -/
theorem entry0_bias (c : Dev nD) :
    V1 m ρ c main_v0 = shapeCast S1x9216 (m ((c : Thread nD τ).loc main_arg3)) shapeCasts_S9216_S1x9216 := by
  show StableHlo.after hostOps0 (W0 m ρ c) (Proc.devRef .tc main_v0) = _
  after_results
  rfl

/-- After the first region its output row holds the modulation vector of the arguments: the reference's stage. -/
theorem mod_row (c : Dev nD) : W2 m ρ c (Proc.devRef .tc main_v1)
    = Cert.ReferenceIdeal.Read.val_main_v4 (F := Ideal) (m ((c : Thread nD τ).loc main_arg1)) (m ((c : Thread nD τ).loc main_arg2)) (m ((c : Thread nD τ).loc main_arg3)) := by
  refine (W2_arr m ρ c 3).trans ((Cert.KernelIdeal.Gemv.final (V1 m ρ) c).trans ?_)
  rw [entry0_emb, entry0_W, entry0_bias]
  refine Eq.trans ?_ (Cert.ReferenceIdeal.RefValue.modVec_eq _ _ _).symm
  unfold Cert.Spec.modVec
  refine congrArg (Cert.Spec.modVecRow _ _) (funext fun i => ?_)
  obtain ⟨u, n, rfl⟩ : ∃ (u : Fin 1) (n : Fin 9216), i = ix2 u n := ⟨i 0, i 1, eq_ix2 i⟩
  exact shapeCast_a_1a_apply (m ((c : Thread nD τ).loc main_arg3)) shapeCasts_S9216_S1x9216 u n

/-! ## What the second region finds -/

/-- The activations reach the second region as launched: no host operation and neither region writes them. -/
theorem entry1_x (c : Dev nD) : V3 m ρ c main_arg0 = m ((c : Thread nD τ).loc main_arg0) :=
  calc W3 m ρ c (Proc.devRef .tc main_arg0)
    _ = W2 m ρ c (Proc.devRef .tc main_arg0) := by
          show StableHlo.after hostOps1 (W2 m ρ c) (Proc.devRef .tc main_arg0) = _
          after_results
    _ = W1 m ρ c (Proc.devRef .tc main_arg0) := W2_of_ne m ρ c main_arg0 (by decide)
    _ = m ((c : Thread nD τ).loc main_arg0) := by
          show StableHlo.after hostOps0 (W0 m ρ c) (Proc.devRef .tc main_arg0) = _
          after_results

/-- The shift: the first column of the modulation vector's [3072, 3] table. -/
theorem entry1_shift (c : Dev nD) : V3 m ρ c main_v4
    = Cert.ReferenceIdeal.Read.val_main_v7 (F := Ideal) (m ((c : Thread nD τ).loc main_arg1)) (m ((c : Thread nD τ).loc main_arg2)) (m ((c : Thread nD τ).loc main_arg3)) := by
  show StableHlo.after hostOps1 (W2 m ρ c) (Proc.devRef .tc main_v4) = _
  after_results
  rw [mod_row]
  rfl

/-- The scale: the second column. -/
theorem entry1_scale (c : Dev nD) : V3 m ρ c main_v6
    = Cert.ReferenceIdeal.Read.val_main_v9 (F := Ideal) (m ((c : Thread nD τ).loc main_arg1)) (m ((c : Thread nD τ).loc main_arg2)) (m ((c : Thread nD τ).loc main_arg3)) := by
  show StableHlo.after hostOps1 (W2 m ρ c) (Proc.devRef .tc main_v6) = _
  after_results
  rw [mod_row]
  rfl

/-! ## The two results -/

/-- The second result, the gate: the third column, which the second region leaves alone. -/
theorem gate_eq (c : Dev nD) : W4 m ρ c (Proc.devRef .tc main_v8)
    = Cert.ReferenceIdeal.Read.val_main_v11 (F := Ideal) (m ((c : Thread nD τ).loc main_arg1)) (m ((c : Thread nD τ).loc main_arg2)) (m ((c : Thread nD τ).loc main_arg3)) := by
  refine (W4_of_ne m ρ c main_v8 (by decide)).trans ?_
  show StableHlo.after hostOps1 (W2 m ρ c) (Proc.devRef .tc main_v8) = _
  after_results
  rw [mod_row]
  rfl

/-- The first result: the normalised and modulated activations, which is the reference's last stage. -/
theorem out_eq (c : Dev nD) : W4 m ρ c (Proc.devRef .tc main_v9)
    = Cert.ReferenceIdeal.Read.val_main_v35 (F := Ideal) (m ((c : Thread nD τ).loc main_arg0)) (m ((c : Thread nD τ).loc main_arg1)) (m ((c : Thread nD τ).loc main_arg2)) (m ((c : Thread nD τ).loc main_arg3)) := by
  refine (W4_arr m ρ c 3).trans ((Cert.KernelIdeal.Ln.final (V3 m ρ) c).trans ?_)
  rw [entry1_x, entry1_shift, entry1_scale]
  exact (Cert.ReferenceIdeal.RefValue.lnMod_eq _ _ _ _).symm

/-- The program's run with both results named as the reference's stages of the arguments. -/
theorem run : θ_run defs (onTc (τ := τ) (main (F := Ideal))) ⟨m, fun _ => 0, ρ⟩ (fun r => ∀ c : Dev nD,
      r.2.mem ((c.tc : Thread nD τ).loc main_v9) = Cert.ReferenceIdeal.Read.val_main_v35 (F := Ideal) (m ((c : Thread nD τ).loc main_arg0)) (m ((c : Thread nD τ).loc main_arg1)) (m ((c : Thread nD τ).loc main_arg2)) (m ((c : Thread nD τ).loc main_arg3))
      ∧ r.2.mem ((c.tc : Thread nD τ).loc main_v8) = Cert.ReferenceIdeal.Read.val_main_v11 (F := Ideal) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (out_eq m ρ c), (h c).2.1.trans (gate_eq m ρ c), (h c).2.2⟩)
    (Cert.KernelIdeal.Results.run m ρ)

end Cert.KernelIdeal.Glue

end
-- ==== Proof.lean ====
/- Adaptive layer-norm modulation: a kernel pair against its plain reference, equal over the extended reals.

   Both programs take activations `x` (8192 rows of 3072), a conditioning row `emb`, a weight `W` (9216 × 3072)
   and a bias `b`. The modulation vector is `e[n] = ∑ₖ silu(embₖ) · W[n, k] + b[n]` with `silu(t) = t · σ(t)`; read
   as a [3072, 3] table its columns are the shift, the scale and the gate. The first result is, at row `r` and
   entry `k`, `(x[r, k] − mean_r) · rsqrt(var_r + ε) · scale[k] + shift[k]`, `mean_r` and `var_r` the row's mean and
   mean square deviation; the second result is the gate.

   The kernel program computes `e` in nine blocks of 1024 entries (each a matrix product into a zero accumulator
   over the 3072 shared entries, the operands narrowed to sixteen bits first, which changes nothing on the extended
   reals) and the first result in thirty-two blocks of 256 rows; the reference computes both whole. No algebraic law
   is needed beyond reading each sum as a finite sum: the two sides are the same term at every index, so the
   finiteness of the inputs is never used.

   The three frames: the two kernel programs' are the generated ones; the reference's is its generated run with the
   results dropped. `preserves` is trivial: the idealisation rewrote nothing. -/
import proofs.«179751_j36112085025538_1_alg».proof.Defs
import proofs.«179751_j36112085025538_1_alg».proof.Proof.Gen.Kernel
import proofs.«179751_j36112085025538_1_alg».proof.Proof.Gen.Kernel.Skeleton
import proofs.«179751_j36112085025538_1_alg».proof.Proof.Gen.Kernel.Launch
import proofs.«179751_j36112085025538_1_alg».proof.Proof.Gen.Kernel.Points
import proofs.«179751_j36112085025538_1_alg».proof.Proof.Gen.Kernel.Frame
import proofs.«179751_j36112085025538_1_alg».proof.Proof.Gen.KernelIdeal
import proofs.«179751_j36112085025538_1_alg».proof.Proof.Gen.KernelIdeal.Skeleton
import proofs.«179751_j36112085025538_1_alg».proof.Proof.Gen.KernelIdeal.Launch
import proofs.«179751_j36112085025538_1_alg».proof.Proof.Gen.KernelIdeal.Points
import proofs.«179751_j36112085025538_1_alg».proof.Proof.Gen.KernelIdeal.Frame
import proofs.«179751_j36112085025538_1_alg».proof.Proof.Gen.ReferenceIdeal
import proofs.«179751_j36112085025538_1_alg».proof.Proof.Gen.ReferenceIdeal.Run
import proofs.«179751_j36112085025538_1_alg».proof.Proof.Gen.ReferenceIdeal.Read
import proofs.«179751_j36112085025538_1_alg».proof.Proof.Gen.Pre_finite_inputs
import proofs.«179751_j36112085025538_1_alg».proof.Proof.Glue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- The idealised kernel program runs and keeps its arguments. -/
theorem frame_kernelIdeal : Cert.frame_KernelIdeal := fun m ρ _ => Cert.KernelIdeal.Gen.frame m ρ

/-- The reference runs and keeps its arguments: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with the normalised and modulated activations and the
    gate of those arguments: the kernel program by its two regions' blocks, the reference by its own stages. -/
theorem algebraic : Cert.algebraic_KernelIdeal_ReferenceIdeal := by
  intro m ρ m' ρ' _ hagree
  refine ⟨fun c => Cert.ReferenceIdeal.Read.val_main_v35 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun c => Cert.ReferenceIdeal.Read.val_main_v11 (F := Ideal)
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Glue.run m ρ, ?_⟩
  refine (θ_run Cert.ReferenceIdeal.defs _ _).mono (fun _ h c => ⟨?_, ?_, (h c).2.2⟩)
    (Cert.ReferenceIdeal.Value.run (F := Ideal) m' ρ')
  · rw [(h c).1, (hagree c).1, (hagree c).2.1, (hagree c).2.2.1, (hagree c).2.2.2]
    exact Cert.ReferenceIdeal.Read.val_main_v35_eq _ _ _ _
  · rw [(h c).2.1, (hagree c).2.1, (hagree c).2.2.1, (hagree c).2.2.2]
    exact Cert.ReferenceIdeal.Read.val_main_v11_eq _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
